-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008x1 : Shape := ⟨2, ![11008, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x2048 32) (main_arg2 : FVec F S11008x1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x2048 : Shape := ⟨2, ![11008, 2048]⟩
abbrev S11008x1 : Shape := ⟨2, ![11008, 1]⟩
abbrev S11008 : Shape := ⟨1, ![11008]⟩
abbrev S8192x4096 : Shape := ⟨2, ![8192, 4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S_ : Shape := ⟨0, ![]⟩
abbrev S11264x2048 : Shape := ⟨2, ![11264, 2048]⟩
abbrev S11264x1 : Shape := ⟨2, ![11264, 1]⟩
abbrev S11264 : Shape := ⟨1, ![11264]⟩
abbrev S1x11264 : Shape := ⟨2, ![1, 11264]⟩
abbrev S8192x11008 : Shape := ⟨2, ![8192, 11008]⟩
abbrev S1024x512 : Shape := ⟨2, ![1024, 512]⟩
abbrev S1x1024 : Shape := ⟨2, ![1, 1024]⟩
abbrev S1024x1024 : Shape := ⟨2, ![1024, 1024]⟩
abbrev S4x2048x11008 : Shape := ⟨3, ![4, 2048, 11008]⟩

abbrev nBuf : Space → Nat
  | .hbm => 25
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x1, .f32⟩
  | .hbm, ⟨3, _⟩ => ⟨S11008, .f32⟩
  | .hbm, ⟨4, _⟩ => ⟨S8192x4096, .f32⟩
  | .hbm, ⟨5, _⟩ => ⟨S8192x2048x2, .f32⟩
  | .hbm, ⟨6, _⟩ => ⟨S8192x2048x1, .f32⟩
  | .hbm, ⟨7, _⟩ => ⟨S8192x2048, .f32⟩
  | .hbm, ⟨8, _⟩ => ⟨S8192x2048, .bf16⟩
  | .hbm, ⟨9, _⟩ => ⟨S8192x2048x1, .f32⟩
  | .hbm, ⟨10, _⟩ => ⟨S8192x2048, .f32⟩
  | .hbm, ⟨11, _⟩ => ⟨S8192x2048, .bf16⟩
  | .hbm, ⟨12, _⟩ => ⟨S_, .i32⟩
  | .hbm, ⟨13, _⟩ => ⟨S_, .i32⟩
  | .hbm, ⟨14, _⟩ => ⟨S11264x2048, .i32⟩
  | .hbm, ⟨15, _⟩ => ⟨S_, .i32⟩
  | .hbm, ⟨16, _⟩ => ⟨S_, .f32⟩
  | .hbm, ⟨17, _⟩ => ⟨S11264x1, .f32⟩
  | .hbm, ⟨18, _⟩ => ⟨S_, .i32⟩
  | .hbm, ⟨19, _⟩ => ⟨S_, .f32⟩
  | .hbm, ⟨20, _⟩ => ⟨S11264, .f32⟩
  | .hbm, ⟨21, _⟩ => ⟨S1x11264, .f32⟩
  | .hbm, ⟨22, _⟩ => ⟨S1x11264, .f32⟩
  | .hbm, ⟨23, _⟩ => ⟨S8192x11008, .f32⟩
  | .hbm, ⟨24, _⟩ => ⟨S4x2048x11008, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .i32⟩
  | .local _ .vmem, ⟨5, _⟩ => ⟨S1024x512, .i32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 11, 4], ![false, false, false]⟩

def k0_cond2 (i : grid0.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  bitsLt_bf16_f32 : FTy.bits .bf16 < FTy.bits .f32
  slices_S8192x2048x2_S8192x2048x1_0_0_1 : S8192x2048x2.Slices ![0, 0, 1] S8192x2048x1
  pads_S11008x2048_S11264x2048_02560_000 : S11008x2048.Pads (![0, 0] : Fin 2 → Nat) ![256, 0] ![0, 0] S11264x2048
  h_S_ : 0 < S_.numel
  pads_S11008x1_S11264x1_02560_000 : S11008x1.Pads (![0, 0] : Fin 2 → Nat) ![256, 0] ![0, 0] S11264x1
  pads_S11008_S11264_02560 : S11008.Pads (![0] : Fin 1 → Nat) ![256] ![0] S11264
  shapeCasts_S11264x1_S1x11264 : S11264x1.ShapeCasts S1x11264
  shapeCasts_S11264_S1x11264 : S11264.ShapeCasts S1x11264
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x11008_S4x2048x11008 : S8192x11008.ShapeCasts S4x2048x11008
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .bf16 = 32 ∨ (Rect.block (s := S8192x2048) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x2048.size a
  hwx0_1 : ∀ i : grid0.Coords, EltTy.bits .bf16 = 32 ∨ (Rect.block (s := S8192x2048) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S11264x2048.size a
  hwx0_2 : ∀ i : grid0.Coords, EltTy.bits .i32 = 32 ∨ (Rect.block (s := S11264x2048) S1024x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x11264.size a
  hwx0_3 : ∀ i : grid0.Coords, EltTy.bits .f32 = 32 ∨ (Rect.block (s := S1x11264) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x11264.size a
  hwx0_4 : ∀ i : grid0.Coords, EltTy.bits .f32 = 32 ∨ (Rect.block (s := S1x11264) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1024x1024.size a < S8192x11008.size a
  hwx0_5 : ∀ i : grid0.Coords, EltTy.bits .f32 = 32 ∨ (Rect.unit (s := S8192x11008) (fun a => cc0_transform_5 i a * S1024x1024.size a) (fun a => (Pipeline.Clip.of (cc0_transform_5 i a) (S1024x1024.size a) (S8192x11008.size a)).extent (S1024x1024.size a)) fun a => Pipeline.Clip.inb (Pipeline.Clip.ok_of (hstart0_5 i a))).WholeWords (EltTy.packing .f32)
  hwxs0_5 : ∀ i : grid0.Coords, EltTy.bits .f32 = 32 ∨ (Rect.unit (s := S1024x1024) (fun _ => 0) (fun a => (Pipeline.Clip.of (cc0_transform_5 i a) (S1024x1024.size a) (S8192x11008.size a)).extent (S1024x1024.size a)) fun a => (Nat.zero_add _).trans_le (Pipeline.Clip.extent_le (Pipeline.Clip.ok_of (hstart0_5 i a)))).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpecClip (Memref.whole main_v13) S1024x1024.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008x1 : Shape := ⟨2, ![11008, 1]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x1, .f32⟩
  | .hbm, ⟨3, _⟩ => ⟨S11008, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S_, .i32⟩
  | .hbm, ⟨8, _⟩ => ⟨S11008x2048, .i32⟩
  | .hbm, ⟨9, _⟩ => ⟨S11008x2048, .i32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S_, .i32⟩
  | .hbm, ⟨14, _⟩ => ⟨S11008x2048, .i32⟩
  | .hbm, ⟨15, _⟩ => ⟨S11008x2048, .i32⟩
  | .hbm, ⟨16, _⟩ => ⟨S_, .i32⟩
  | .hbm, ⟨17, _⟩ => ⟨S11008x2048, .i32⟩
  | .hbm, ⟨18, _⟩ => ⟨S11008x2048, .i32⟩
  | .hbm, ⟨19, _⟩ => ⟨S11008x2048x1, .i32⟩
  | .hbm, ⟨20, _⟩ => ⟨S11008x2048x1, .i32⟩
  | .hbm, ⟨21, _⟩ => ⟨S11008x2048x2, .i32⟩
  | .hbm, ⟨22, _⟩ => ⟨S11008x4096, .i32⟩
  | .hbm, ⟨23, _⟩ => ⟨S11008x4096, .f32⟩
  | .hbm, ⟨24, _⟩ => ⟨S11008x4096, .f32⟩
  | .hbm, ⟨25, _⟩ => ⟨S11008x4096, .f32⟩
  | .hbm, ⟨26, _⟩ => ⟨S4x2048x11008, .f32⟩
  | .hbm, ⟨27, _⟩ => ⟨S1x1x11008, .f32⟩
  | .hbm, ⟨28, _⟩ => ⟨S4x2048x11008, .f32⟩
  | .hbm, ⟨29, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LibWholeStore.lean ====
/-
  Stores and loads through the rectangle that is the whole buffer.

  A buffer written by a list of stores, the LAST of which goes through the whole-buffer rectangle (all offsets
  zero, the sizes the buffer's own), holds that last store's payload, whatever the earlier stores and the
  earlier contents were; and a load through the whole-buffer rectangle after such stores reads that payload.
  These are the two facts behind "an accumulator is reset, then updated, then read back": the library has them
  for a list of ONE store; here they are for any list whose head covers the buffer.
-/
import Idealize.ShloMosaic.Lib.Pipeline.FrameBody
import Idealize.ShloMosaic.Lib.Pipeline.Value

namespace Idealize.ShloMosaic.View

variable {Val : EltTy → Type} {S : Shape} {e : EltTy}

/-- The head piece of a list of stores, when it goes through the whole-buffer rectangle, covers every index. -/
theorem cover_cons_unit_zero {off : Fin S.rank → Nat} (h : off = fun _ => 0) (inb : ∀ a, off a + S.size a ≤ S.size a)
    (w : S.Idx → Val e) (L : List (Piece Val S e)) (y : S.Idx) :
    ∃ p ∈ ((⟨Rect.unit off S.size inb, w⟩ : Piece Val S e) :: L), y ∈ p.1.set :=
  ⟨_, List.mem_cons_self, mem_set_unit_zero h inb y⟩

/-- What a buffer holds after stores the last of which is through the whole-buffer rectangle: that store's payload. -/
theorem read_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon _ _ _ (cover_cons_unit_zero h inb w L), canon_cons_unit_zero h inb w L]

/-- What a load through the whole-buffer rectangle reads after such stores: that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (cover_cons_unit_zero h inb w L), canon_cons_unit_zero h inb w L, ld_unit_zero h inb]

end Idealize.ShloMosaic.View
-- ==== Proof.KPieces.lean ====
/-
  What each control case of the kernel body leaves behind, as values of the blocks it was handed.

  One visit of the body adds two products into the accumulator: first the even-column slab against the low nibbles, then the
  odd-column slab against the high nibbles.  At the first slab of a row of visits the accumulator is reset to zero
  before that; at the last slab the output block is the accumulator scaled column by column plus the bias row.
-/
import proofs.«423822_j83081847373963_2_alg».proof.Proof.Gen.KernelIdeal.Frame
import Idealize.ShloMosaic.Lib.Pipeline.Value
import Idealize.ShloMosaic.Lib.Tactic
import proofs.«423822_j83081847373963_2_alg».proof.Proof.LibWholeStore

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- One visit's update of the accumulator: add the even slab's product, then the odd slab's. -/
abbrev step (x0 x1 : Vec F S1024x512 .bf16) (x2 : Vec F S1024x512 .i32) (acc : Vec F S1024x1024 .f32) : Vec F S1024x1024 .f32 :=
  k0_pay1 (k0_pay6 x2 x1 (k0_pay5 x2 x0 acc))

/-- A middle visit leaves the accumulator it found, updated once. -/
theorem sout_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x512 .bf16) (x1 : Vec F S1024x512 .bf16) (x2 : Vec F S1024x512 .i32) (x3 : Vec F S1x1024 .f32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = step x0 x1 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_cons_unit_zero (S := S1024x1024) hz]
  simp only [View.readAt_eq_ld, harg3.read_unread, harg4.read_unread, harg5.read_unread, harg6.read_unread, harg7.read_unread, harg9.read_unread, View.ld_unit_zero (S := S1024x512) hz, View.ld_unit_zero (S := S1024x1024) hz, View.ld_unit_zero (S := S1x1024) hz, View.readCov_cons_unit_zero (S := S1024x1024) _ hz]

/-- The first visit of a row resets the accumulator to zero and updates it once. -/
theorem sout_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x512 .bf16) (x1 : Vec F S1024x512 .bf16) (x2 : Vec F S1024x512 .i32) (x3 : Vec F S1x1024 .f32) (x4 : Vec F S1x1024 .f32) :
    sout0_A_0 c i arg3 harg3 arg4 harg4 arg5 harg5 arg6 harg6 arg7 harg7 arg8 harg8 arg9 harg9 hc0 hc1 x0 x1 x2 x3 x4 = step x0 x1 x2 (k0_pay3 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz]
  simp only [View.readAt_eq_ld, harg3.read_unread, harg4.read_unread, harg5.read_unread, harg6.read_unread, harg7.read_unread, harg9.read_unread, View.ld_unit_zero (S := S1024x512) hz, View.ld_unit_zero (S := S1024x1024) hz, View.ld_unit_zero (S := S1x1024) hz, View.readCov_cons_unit_zero (S := S1024x1024) _ hz]

/-- The last visit of a row updates the accumulator once more, -/
theorem sout_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .bf16) (x1 : Vec F S1024x512 .bf16) (x2 : Vec F S1024x512 .i32) (x3 : Vec F S1x1024 .f32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = step x0 x1 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_cons_unit_zero (S := S1024x1024) hz]
  simp only [View.readAt_eq_ld, harg3.read_unread, harg4.read_unread, harg5.read_unread, harg6.read_unread, harg7.read_unread, harg9.read_unread, View.ld_unit_zero (S := S1024x512) hz, View.ld_unit_zero (S := S1024x1024) hz, View.ld_unit_zero (S := S1x1024) hz, View.readCov_cons_unit_zero (S := S1024x1024) _ hz]

/-- and stores, as the output block, that accumulator times the scale row plus the bias row. -/
theorem out_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .bf16) (x1 : Vec F S1024x512 .bf16) (x2 : Vec F S1024x512 .i32) (x3 : Vec F S1x1024 .f32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay2 x3 x4 (step x0 x1 x2 xs0) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1024x1024) hz]
  simp only [View.readAt_eq_ld, harg3.read_unread, harg4.read_unread, harg5.read_unread, harg6.read_unread, harg7.read_unread, harg9.read_unread, View.ld_unit_zero (S := S1024x512) hz, View.ld_unit_zero (S := S1024x1024) hz, View.ld_unit_zero (S := S1x1024) hz, View.readCov_cons_unit_zero (S := S1024x1024) _ hz]

end Cert.KernelIdeal.Pieces

end
-- ==== Proof.Spec.lean ====
/-
  What both programs compute, as one function of the four argument arrays.

  A 4-bit weight is packed two to a word: the low nibble of word (o, n) belongs to input column 2n, the next nibble
  to column 2n + 1, each read as the integer nibble − 8.  With x : [4, 2048, 4096], packed words w : [11008, 2048],
  a per-row scale sc : [11008, 1] and a bias bi : [11008], the result at (b, s, o) is

      ( Σ_{n < 2048} x[b, s, 2n] · low(w[o, n])  +  Σ_{n < 2048} x[b, s, 2n+1] · high(w[o, n]) ) · sc[o, 0] + bi[o]

  over the extended reals.  The kernel reaches it by accumulating 512-column slabs of the two sums and scaling once at
  the end; the reference scales every weight first and contracts over all 4096 columns, which is the same number once
  every entry is a real (the scale then moves across the sum).
-/
import Idealize.ShloMosaic.PureOps.Ideal
import Idealize.ShloMosaic.Lib.ValueIdx

noncomputable section

namespace Cert.QLinear

open Idealize.ShloMosaic Idealize.ShloMosaic.ValueIdx

/-- The argument and result shapes, literally. -/
abbrev SX : Shape := ⟨3, ![4, 2048, 4096]⟩
abbrev SW : Shape := ⟨2, ![11008, 2048]⟩
abbrev SS : Shape := ⟨2, ![11008, 1]⟩
abbrev SB : Shape := ⟨1, ![11008]⟩
abbrev SO : Shape := ⟨3, ![4, 2048, 11008]⟩

/-- An extended real that is a real number. -/
def IsReal (z : EReal) : Prop := ∃ r : ℝ, z = (r : EReal)

/-- The low nibble of a packed word, as the integer nibble − 8, a real. -/
def lowE (v : BitVec 32) : EReal := (((IntOp.subi (IntOp.andi v 15#32) 8#32).toInt : ℝ) : EReal)

/-- The next nibble of a packed word (bits 4‥7), as the integer nibble − 8, a real. -/
def highE (v : BitVec 32) : EReal :=
  (((IntOp.subi (IntOp.andi (IntOp.shrsi .host v 4#32) 15#32) 8#32).toInt : ℝ) : EReal)

theorem isReal_lowE (v : BitVec 32) : IsReal (lowE v) := ⟨_, rfl⟩
theorem isReal_highE (v : BitVec 32) : IsReal (highE v) := ⟨_, rfl⟩

/-- The result at row (b, s) and output channel o. -/
def Gat (x : SX.Idx → EReal) (w : SW.Idx → BitVec 32) (sc : SS.Idx → EReal) (bi : SB.Idx → EReal)
    (b : Fin 4) (s : Fin 2048) (o : Fin 11008) : EReal :=
  (∑ n : Fin 2048, x (ix3 b s (⟨2 * n.val, by omega⟩ : Fin 4096)) * lowE (w (ix2 o n))
    + ∑ n : Fin 2048, x (ix3 b s (⟨2 * n.val + 1, by omega⟩ : Fin 4096)) * highE (w (ix2 o n)))
    * sc (ix2 o (0 : Fin 1)) + bi (ix1 o)

/-- The whole result array. -/
def G (x : SX.Idx → EReal) (w : SW.Idx → BitVec 32) (sc : SS.Idx → EReal) (bi : SB.Idx → EReal) : SO.Idx → EReal :=
  fun i => Gat x w sc bi (i 0) (i 1) (i 2)

theorem G_apply (x : SX.Idx → EReal) (w : SW.Idx → BitVec 32) (sc : SS.Idx → EReal) (bi : SB.Idx → EReal)
    (b : Fin 4) (s : Fin 2048) (o : Fin 11008) : G x w sc bi (ix3 b s o) = Gat x w sc bi b s o := rfl

end Cert.QLinear

end
-- ==== Proof.KPay.lean ====
/-
  The body's arithmetic, entry by entry, over the extended reals.

  With a block of even (or odd) columns X : [1024, 512] and a block of packed words P : [1024, 512], the product the body
  adds at (r, c) is Σ_{l < 512} X[r, l] · nibble(P[c, l]): both operands are contracted along their second axis.  The
  closing step multiplies the accumulator's column c by the scale row's entry c and adds the bias row's entry c.
-/
import proofs.«423822_j83081847373963_2_alg».proof.Proof.KPieces
import proofs.«423822_j83081847373963_2_alg».proof.Proof.Spec
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.TcCoe Idealize.ShloMosaic.ValueIdx Idealize.SL.Sem
open Cert.KernelIdeal Cert.KernelIdeal.Gen
open Cert.QLinear (lowE highE)

/-- Row of the left operand: the result's row. -/
theorem lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- Column of the left operand: the summation index. -/
theorem lhs_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- Row of the right operand: the result's column. -/
theorem rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- Column of the right operand: the summation index. -/
theorem rhs_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of two [1024, 512] blocks contracted along their second axes, into a zero accumulator, at (r, c). -/
theorem mm_apply (lhs rhs : FVec Ideal S1024x512 .bf16) (r c : Fin 1024) :
    matmul dot_S1024x512_S1024x512_S1024x1024_1_1_0_0_n_n none lhs rhs (constant S1024x1024 .f32 0x00000000#32) (ix2 r c)
      = ∑ l : Fin 512, lhs (ix2 r l) * rhs (ix2 c l) := by
  show FloatOps.matmul dot_S1024x512_S1024x512_S1024x1024_1_1_0_0_n_n none lhs rhs (constant S1024x1024 .f32 0x00000000#32) (ix2 r c) = _
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r c) ((ValueIdx.contrEquiv1 dot_S1024x512_S1024x512_S1024x1024_1_1_0_0_n_n 512 rfl rfl).symm k) = ix2 r k := funext fun a => Fin.ext (by
    match a with
    | ⟨0, _⟩ => exact lhs_0 _ _
    | ⟨1, _⟩ => exact (lhs_1 _ _).trans hk)
  have er : dot_S1024x512_S1024x512_S1024x1024_1_1_0_0_n_n.rhsIdx (ix2 r c) ((ValueIdx.contrEquiv1 dot_S1024x512_S1024x512_S1024x1024_1_1_0_0_n_n 512 rfl rfl).symm k) = ix2 c k := funext fun a => Fin.ext (by
    match a with
    | ⟨0, _⟩ => exact rhs_0 _ _
    | ⟨1, _⟩ => exact (rhs_1 _ _).trans hk)
  rw [el, er]

/-- The reset value of the accumulator is zero everywhere. -/
theorem zero_apply (j : S1024x1024.Idx) : k0_pay3 (F := Ideal) j = 0 := by
  unfold k0_pay3
  simp only [shapeCast_self]
  show Ideal.ofBits .f32 0x00000000#32 = 0
  exact Ideal.ofBits_zero_f32

/-- One visit at (r, c): the accumulator plus the even slab's product with the low nibbles, plus the odd slab's with
    the high nibbles. -/
theorem step_apply (x0 x1 : Vec Ideal S1024x512 .bf16) (x2 : Vec Ideal S1024x512 .i32) (acc : Vec Ideal S1024x1024 .f32)
    (r c : Fin 1024) :
    Pieces.step x0 x1 x2 acc (ix2 r c)
      = (acc (ix2 r c) + ∑ l : Fin 512, x0 (ix2 r l) * lowE (x2 (ix2 c l)))
        + ∑ l : Fin 512, x1 (ix2 r l) * highE (x2 (ix2 c l)) := by
  unfold Pieces.step k0_pay1 k0_pay6 k0_pay5 k0_pay4
  simp only [shapeCast_self]
  rw [addf_apply, mm_apply, addf_apply, mm_apply]
  rfl

/-- The closing step at (r, c): the accumulator times the scale row's entry c, plus the bias row's entry c. -/
theorem fin_apply (x3 x4 : Vec Ideal S1x1024 .f32) (acc : Vec Ideal S1024x1024 .f32) (r c : Fin 1024) :
    k0_pay2 x3 x4 acc (ix2 r c) = acc (ix2 r c) * x3 (ix2 (0 : Fin 1) c) + x4 (ix2 (0 : Fin 1) c) := by
  unfold k0_pay2
  simp only [shapeCast_self]
  rw [addf_apply, mulf_apply]
  rw [broadcastTo_apply x3 broadcasts_S1x1024_S1024x1024 (ix2 r c) (ix2 (0 : Fin 1) c) (fun a => by
        match a with
        | ⟨0, _⟩ => rfl
        | ⟨1, _⟩ => rfl),
      broadcastTo_apply x4 broadcasts_S1x1024_S1024x1024 (ix2 r c) (ix2 (0 : Fin 1) c) (fun a => by
        match a with
        | ⟨0, _⟩ => rfl
        | ⟨1, _⟩ => rfl)]

end Cert.KernelIdeal.Pay

end
-- ==== Proof.KInv.lean ====
/-
  The accumulator after every visit, in closed form.

  Visit t of the 8 × 11 × 4 grid has row block t / 44, column block (t / 4) mod 11 and slab t mod 4.  Its even-column
  block is rows 1024·(t/44) … of the even columns at columns 512·(t mod 4) …, its packed block the rows
  1024·((t/4) mod 11) … of the padded weights at the same columns.  After the visit the accumulator's entry (r, c) is the
  two running sums over the first 512·(t mod 4 + 1) columns: zero at the start of a row of visits, one slab more per visit.
-/
import proofs.«423822_j83081847373963_2_alg».proof.Proof.KPay
import Idealize.ShloMosaic.Lib.Pipeline.Value

noncomputable section

namespace Cert.KernelIdeal.Inv

open Idealize.ShloMosaic Idealize.ShloMosaic.TcCoe Idealize.ShloMosaic.ValueIdx Idealize.SL.Sem
open Idealize.ShloMosaic.Pipeline (Dat)
open Cert.KernelIdeal Cert.KernelIdeal.Gen
open Cert.QLinear (lowE highE)

variable (m : (ℓ : Loc nD τ sig) → Buf (Elt Ideal) ℓ) (c : Dev nD)

/-- The five arrays the region reads, by their literal types: even columns, odd columns, padded packed weights, the
    scale row and the bias row. -/
abbrev XE : S8192x2048.Idx → EReal := V m c main_v4
abbrev XO : S8192x2048.Idx → EReal := V m c main_v7
abbrev PW : S11264x2048.Idx → BitVec 32 := V m c main_v8
abbrev SC : S1x11264.Idx → EReal := V m c main_v11
abbrev BI : S1x11264.Idx → EReal := V m c main_v12

/-- Entry (a, b) of a rank-2 array by natural coordinates; a default off the array. -/
def at2 {α : Type} {A B : ℕ} (d : α) (X : (⟨2, ![A, B]⟩ : Shape).Idx → α) (a b : ℕ) : α :=
  if h : a < A ∧ b < B then X (ix2 ⟨a, h.1⟩ ⟨b, h.2⟩) else d

theorem at2_eq {α : Type} {A B : ℕ} (d : α) (X : (⟨2, ![A, B]⟩ : Shape).Idx → α) (a b : ℕ) (ha : a < A) (hb : b < B) :
    at2 d X a b = X (ix2 ⟨a, ha⟩ ⟨b, hb⟩) := dif_pos ⟨ha, hb⟩

/-- The two running sums over the first k columns, for flattened row R and padded output channel o. -/
def part (R o k : ℕ) : EReal :=
  ∑ n ∈ Finset.range k, at2 0 (XE m c) R n * lowE (at2 0 (PW m c) o n)
    + ∑ n ∈ Finset.range k, at2 0 (XO m c) R n * highE (at2 0 (PW m c) o n)

theorem part_zero (R o : ℕ) : part m c R o 0 = 0 := by
  unfold part; simp

/-- One slab more: 512 further columns join each running sum. -/
theorem part_step (R o q : ℕ) :
    part m c R o (512 * (q + 1))
      = (part m c R o (512 * q) + ∑ l : Fin 512, at2 0 (XE m c) R (512 * q + l.val) * lowE (at2 0 (PW m c) o (512 * q + l.val)))
        + ∑ l : Fin 512, at2 0 (XO m c) R (512 * q + l.val) * highE (at2 0 (PW m c) o (512 * q + l.val)) := by
  unfold part
  rw [show 512 * (q + 1) = 512 * q + 512 by ring, Finset.sum_range_add, Finset.sum_range_add,
    Finset.sum_range (n := 512), Finset.sum_range (n := 512), add_add_add_comm, ← add_assoc]

/-! ## Which block each window holds at a visit -/

theorem hN (t : Fin cfg0.N) : t.val < 352 := lt_of_lt_of_eq t.isLt N_0

theorem idx0 : ∀ t : Fin cfg0.N, win0_0.index t 0 = t.val / 44 ∧ win0_0.index t 1 = t.val % 4 :=
  (by decide +kernel : ∀ t : Fin grid0.N, win0_0.index t 0 = t.val / 44 ∧ win0_0.index t 1 = t.val % 4)
theorem idx1 : ∀ t : Fin cfg0.N, win0_1.index t 0 = t.val / 44 ∧ win0_1.index t 1 = t.val % 4 :=
  (by decide +kernel : ∀ t : Fin grid0.N, win0_1.index t 0 = t.val / 44 ∧ win0_1.index t 1 = t.val % 4)
theorem idx2 : ∀ t : Fin cfg0.N, win0_2.index t 0 = t.val / 4 % 11 ∧ win0_2.index t 1 = t.val % 4 :=
  (by decide +kernel : ∀ t : Fin grid0.N, win0_2.index t 0 = t.val / 4 % 11 ∧ win0_2.index t 1 = t.val % 4)
theorem idx3 : ∀ t : Fin cfg0.N, win0_3.index t 0 = 0 ∧ win0_3.index t 1 = t.val / 4 % 11 :=
  (by decide +kernel : ∀ t : Fin grid0.N, win0_3.index t 0 = 0 ∧ win0_3.index t 1 = t.val / 4 % 11)
theorem idx4 : ∀ t : Fin cfg0.N, win0_4.index t 0 = 0 ∧ win0_4.index t 1 = t.val / 4 % 11 :=
  (by decide +kernel : ∀ t : Fin grid0.N, win0_4.index t 0 = 0 ∧ win0_4.index t 1 = t.val / 4 % 11)

/-- The blocks the body is handed at visit t, by their literal types, and the accumulator after visit n. -/
abbrev b0 (t : Fin cfg0.N) : Vec Ideal S1024x512 .bf16 := iblk m c 0 t
abbrev b1 (t : Fin cfg0.N) : Vec Ideal S1024x512 .bf16 := iblk m c 1 t
abbrev b2 (t : Fin cfg0.N) : Vec Ideal S1024x512 .i32 := iblk m c 2 t
abbrev b3 (t : Fin cfg0.N) : Vec Ideal S1x1024 .f32 := iblk m c 3 t
abbrev b4 (t : Fin cfg0.N) : Vec Ideal S1x1024 .f32 := iblk m c 4 t
abbrev acc (n : ℕ) (h : n < cfg0.N) : Vec Ideal S1024x1024 .f32 := (outsAt0 m c n h).2

/-- The even-column block at visit t, entry (r, l). -/
theorem blk0 (t : Fin cfg0.N) (r : Fin 1024) (l : Fin 512) :
    b0 m c t (ix2 r l) = at2 0 (XE m c) (1024 * (t.val / 44) + r.val) (512 * (t.val % 4) + l.val) := by
  have h := hN t
  rw [at2_eq _ _ _ _ (by omega) (by omega)]
  show V m c main_v4 _ = V m c main_v4 _
  congr 1
  funext a
  apply Fin.ext
  match a with
  | ⟨0, _⟩ => show win0_0.index t 0 * 1024 + 1 * r.val = 1024 * (t.val / 44) + r.val; rw [(idx0 t).1]; omega
  | ⟨1, _⟩ => show win0_0.index t 1 * 512 + 1 * l.val = 512 * (t.val % 4) + l.val; rw [(idx0 t).2]; omega

/-- The odd-column block at visit t, entry (r, l). -/
theorem blk1 (t : Fin cfg0.N) (r : Fin 1024) (l : Fin 512) :
    b1 m c t (ix2 r l) = at2 0 (XO m c) (1024 * (t.val / 44) + r.val) (512 * (t.val % 4) + l.val) := by
  have h := hN t
  rw [at2_eq _ _ _ _ (by omega) (by omega)]
  show V m c main_v7 _ = V m c main_v7 _
  congr 1
  funext a
  apply Fin.ext
  match a with
  | ⟨0, _⟩ => show win0_1.index t 0 * 1024 + 1 * r.val = 1024 * (t.val / 44) + r.val; rw [(idx1 t).1]; omega
  | ⟨1, _⟩ => show win0_1.index t 1 * 512 + 1 * l.val = 512 * (t.val % 4) + l.val; rw [(idx1 t).2]; omega

/-- The packed-weight block at visit t, entry (cc, l). -/
theorem blk2 (t : Fin cfg0.N) (cc : Fin 1024) (l : Fin 512) :
    b2 m c t (ix2 cc l) = at2 0 (PW m c) (1024 * (t.val / 4 % 11) + cc.val) (512 * (t.val % 4) + l.val) := by
  have h := hN t
  rw [at2_eq _ _ _ _ (by omega) (by omega)]
  show V m c main_v8 _ = V m c main_v8 _
  congr 1
  funext a
  apply Fin.ext
  match a with
  | ⟨0, _⟩ => show win0_2.index t 0 * 1024 + 1 * cc.val = 1024 * (t.val / 4 % 11) + cc.val; rw [(idx2 t).1]; omega
  | ⟨1, _⟩ => show win0_2.index t 1 * 512 + 1 * l.val = 512 * (t.val % 4) + l.val; rw [(idx2 t).2]; omega

/-- The scale row's block at visit t, entry (0, cc). -/
theorem blk3 (t : Fin cfg0.N) (cc : Fin 1024) :
    b3 m c t (ix2 (0 : Fin 1) cc) = at2 0 (SC m c) 0 (1024 * (t.val / 4 % 11) + cc.val) := by
  have h := hN t
  rw [at2_eq _ _ _ _ (by omega) (by omega)]
  show V m c main_v11 _ = V m c main_v11 _
  congr 1
  funext a
  apply Fin.ext
  match a with
  | ⟨0, _⟩ => show win0_3.index t 0 * 1 + 1 * 0 = 0; rw [(idx3 t).1]
  | ⟨1, _⟩ => show win0_3.index t 1 * 1024 + 1 * cc.val = 1024 * (t.val / 4 % 11) + cc.val; rw [(idx3 t).2]; omega

/-- The bias row's block at visit t, entry (0, cc). -/
theorem blk4 (t : Fin cfg0.N) (cc : Fin 1024) :
    b4 m c t (ix2 (0 : Fin 1) cc) = at2 0 (BI m c) 0 (1024 * (t.val / 4 % 11) + cc.val) := by
  have h := hN t
  rw [at2_eq _ _ _ _ (by omega) (by omega)]
  show V m c main_v12 _ = V m c main_v12 _
  congr 1
  funext a
  apply Fin.ext
  match a with
  | ⟨0, _⟩ => show win0_4.index t 0 * 1 + 1 * 0 = 0; rw [(idx4 t).1]
  | ⟨1, _⟩ => show win0_4.index t 1 * 1024 + 1 * cc.val = 1024 * (t.val / 4 % 11) + cc.val; rw [(idx4 t).2]; omega

/-! ## The accumulator, visit by visit -/

/-- One visit adds its slab to the running sums: from the sums over 512·q columns to those over 512·(q + 1). -/
theorem visit (t : Fin cfg0.N) (r cc : Fin 1024) (prev : EReal)
    (hprev : prev = part m c (1024 * (t.val / 44) + r.val) (1024 * (t.val / 4 % 11) + cc.val) (512 * (t.val % 4))) :
    (prev + ∑ l : Fin 512, b0 m c t (ix2 r l) * lowE (b2 m c t (ix2 cc l)))
        + ∑ l : Fin 512, b1 m c t (ix2 r l) * highE (b2 m c t (ix2 cc l))
      = part m c (1024 * (t.val / 44) + r.val) (1024 * (t.val / 4 % 11) + cc.val) (512 * (t.val % 4 + 1)) := by
  rw [hprev, part_step]
  simp only [blk0, blk1, blk2]

/-- What the first visit of a row of visits leaves in the accumulator: zero, updated once. -/
theorem acc_first (t : Fin cfg0.N) (h0 : t.val % 4 = 0) (h1 : ¬t.val % 4 = 3) :
    acc m c t.val t.isLt = Pieces.step (b0 m c t) (b1 m c t) (b2 m c t) (k0_pay3 (F := Ideal)) := by
  show (outsAt0 m c t.val t.isLt).2 = _
  rw [outsAt0_A m c t h0 h1]
  dsimp only
  exact Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (b0 m c t) (b1 m c t) (b2 m c t) (b3 m c t) (b4 m c t)

/-- What a middle visit leaves: the accumulator of the visit before, updated once. -/
theorem acc_mid (t : Fin cfg0.N) (h0 : ¬t.val % 4 = 0) (h1 : ¬t.val % 4 = 3) :
    acc m c t.val t.isLt = Pieces.step (b0 m c t) (b1 m c t) (b2 m c t) (acc m c (t.val - 1) (Nat.lt_of_le_of_lt (Nat.sub_le _ _) t.isLt)) := by
  show (outsAt0 m c t.val t.isLt).2 = _
  rw [outsAt0_B m c t h0 h1]
  dsimp only
  exact Pieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (b0 m c t) (b1 m c t) (b2 m c t) (b3 m c t) (b4 m c t) (outsAt0 m c (t.val - 1) (Nat.lt_of_le_of_lt (Nat.sub_le _ _) t.isLt)).2

/-- What the last visit of a row leaves: the same update. -/
theorem acc_last (t : Fin cfg0.N) (h0 : ¬t.val % 4 = 0) (h1 : t.val % 4 = 3) :
    acc m c t.val t.isLt = Pieces.step (b0 m c t) (b1 m c t) (b2 m c t) (acc m c (t.val - 1) (Nat.lt_of_le_of_lt (Nat.sub_le _ _) t.isLt)) := by
  show (outsAt0 m c t.val t.isLt).2 = _
  rw [outsAt0_C m c t h0 h1]
  dsimp only
  exact Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (b0 m c t) (b1 m c t) (b2 m c t) (b3 m c t) (b4 m c t) (outsAt0 m c (t.val - 1) (Nat.lt_of_le_of_lt (Nat.sub_le _ _) t.isLt)).2

/-- After visit n the accumulator's entry (r, cc) is the two running sums over the first 512·(n mod 4 + 1) columns,
    for the visit's row block and column block: by induction on the visit. -/
theorem acc_eq : ∀ (n : ℕ) (h : n < cfg0.N) (r cc : Fin 1024),
    acc m c n h (ix2 r cc)
      = part m c (1024 * (n / 44) + r.val) (1024 * (n / 4 % 11) + cc.val) (512 * (n % 4 + 1)) := by
  intro n
  induction n with
  | zero =>
    intro h r cc
    have e := acc_first m c ⟨0, h⟩ (Nat.zero_mod 4) (by show ¬(0 % 4 = 3); decide)
    rw [show acc m c 0 h = acc m c (⟨0, h⟩ : Fin cfg0.N).val (⟨0, h⟩ : Fin cfg0.N).isLt from rfl, e]
    refine (Pay.step_apply (b0 m c ⟨0, h⟩) (b1 m c ⟨0, h⟩) (b2 m c ⟨0, h⟩) (k0_pay3 (F := Ideal)) r cc).trans ?_
    rw [Pay.zero_apply]
    exact visit m c ⟨0, h⟩ r cc 0 (by rw [show (⟨0, h⟩ : Fin cfg0.N).val % 4 = 0 from rfl, Nat.mul_zero, part_zero])
  | succ n ih =>
    intro h r cc
    have hlt : n + 1 < 352 := lt_of_lt_of_eq h N_0
    by_cases h0 : (n + 1) % 4 = 0
    · have h1 : ¬(n + 1) % 4 = 3 := by omega
      have e := acc_first m c ⟨n + 1, h⟩ h0 h1
      rw [show acc m c (n + 1) h = acc m c (⟨n + 1, h⟩ : Fin cfg0.N).val (⟨n + 1, h⟩ : Fin cfg0.N).isLt from rfl, e]
      refine (Pay.step_apply (b0 m c ⟨n + 1, h⟩) (b1 m c ⟨n + 1, h⟩) (b2 m c ⟨n + 1, h⟩) (k0_pay3 (F := Ideal)) r cc).trans ?_
      rw [Pay.zero_apply]
      exact visit m c ⟨n + 1, h⟩ r cc 0 (by rw [show (⟨n + 1, h⟩ : Fin cfg0.N).val % 4 = 0 from h0, Nat.mul_zero, part_zero])
    · have ihn := ih (Nat.lt_of_succ_lt h) r cc
      have e1 : n / 44 = (n + 1) / 44 := by omega
      have e2 : n / 4 % 11 = (n + 1) / 4 % 11 := by omega
      have e3 : n % 4 + 1 = (n + 1) % 4 := by omega
      rw [e1, e2, e3] at ihn
      have e : acc m c (n + 1) h = Pieces.step (b0 m c ⟨n + 1, h⟩) (b1 m c ⟨n + 1, h⟩) (b2 m c ⟨n + 1, h⟩) (acc m c n (Nat.lt_of_succ_lt h)) := by
        by_cases h1 : (n + 1) % 4 = 3
        · exact acc_last m c ⟨n + 1, h⟩ h0 h1
        · exact acc_mid m c ⟨n + 1, h⟩ h0 h1
      rw [e]
      refine (Pay.step_apply (b0 m c ⟨n + 1, h⟩) (b1 m c ⟨n + 1, h⟩) (b2 m c ⟨n + 1, h⟩) (acc m c n (Nat.lt_of_succ_lt h)) r cc).trans ?_
      exact visit m c ⟨n + 1, h⟩ r cc (acc m c n (Nat.lt_of_succ_lt h) (ix2 r cc)) ihn

end Cert.KernelIdeal.Inv

end
-- ==== Proof.KHost.lean ====
/-
  What the region finds in its five input arrays, read at an index.

  Before the region, the program flattens x : [4, 2048, 4096] to [8192, 4096] (row R = 2048·b + s), views it as
  [8192, 2048, 2] and takes the even columns (pair member 0) and the odd columns (pair member 1); a change of float
  format is the identity over the extended reals.  The packed weights, the scale and the bias are padded with 256 zero
  rows after the last, and scale and bias are then laid out as one row of 11264.  At an index inside the unpadded part
  each of the five arrays reads the argument array at the corresponding index.
-/
import proofs.«423822_j83081847373963_2_alg».proof.Proof.Gen.KernelIdeal.Frame.Runs
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

namespace Cert.KernelIdeal.HostPre

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The opening of the region-entry contents: the operations before the region, in order. -/
local macro "open_entry" : tactic =>
  `(tactic| (dsimp only [Gen.V, Gen.V0]
             simp only [Gen.hostOps0, Gen.hostOps0_1, Gen.hostOps0_2, Gen.hostOps0_3, Gen.hostOps0_4, Gen.hostOps0_5, Gen.hostOps0_6,
               List.flatten_cons, List.flatten_nil, List.append_nil, List.cons_append, List.nil_append]
             after_results))

/-- The even columns as one term of the argument x: flatten, pair up, take pair member 0, drop the unit axis. -/
theorem v4_eq : (V m c main_v4 : S8192x2048.Idx → EReal)
    = (truncf (F := Ideal) .bf16
        (shapeCast S8192x2048
          (extractStridedSlice S8192x2048x1 ![0, 0, 0]
            (shapeCast S8192x2048x2
              (shapeCast S8192x4096 (m ((c : Thread nD τ).loc main_arg0) : S4x2048x4096.Idx → EReal)
                shapeCasts_S4x2048x4096_S8192x4096)
              shapeCasts_S8192x4096_S8192x2048x2)
            slices_S8192x2048x2_S8192x2048x1_0_0_0)
          shapeCasts_S8192x2048x1_S8192x2048 : FVec Ideal S8192x2048 .f32)
        bitsLt_bf16_f32 : FVec Ideal S8192x2048 .bf16) := by
  open_entry
  rfl

theorem xe_apply (R : Fin 8192) (n : Fin 2048) :
    (V m c main_v4 : S8192x2048.Idx → EReal) (ix2 R n)
      = (m ((c : Thread nD τ).loc main_arg0) : S4x2048x4096.Idx → EReal)
          (ix3 (⟨R.val / 2048, by omega⟩ : Fin 4) (⟨R.val % 2048, by omega⟩ : Fin 2048) (⟨2 * n.val, by omega⟩ : Fin 4096)) := by
  rw [v4_eq]
  rw [truncf_apply]
  -- [8192, 2048] from [8192, 2048, 1]: the same row-major position
  refine (shapeCast_apply _ _ (ix2 R n) (ix3 R n (0 : Fin 1)) (by
    rw [Shape.rowMajor_val_two, Shape.rowMajor_val_three]
    show (R.val * 2048 + n.val) * 1 + 0 = R.val * 2048 + n.val
    omega)).trans ?_
  -- pair member 0 of pair n of row R
  refine (extractStridedSlice_apply _ _ _ (ix3 R n (0 : Fin 1)) (ix3 R n (0 : Fin 2)) (fun a => match a with
    | ⟨0, _⟩ => by show R.val = 0 + R.val; omega
    | ⟨1, _⟩ => by show n.val = 0 + n.val; omega
    | ⟨2, _⟩ => by show 0 = 0 + 0; omega)).trans ?_
  -- member 0 of pair n is column 2n
  refine (shapeCast_apply _ _ (ix3 R n (0 : Fin 2)) (ix2 R (⟨2 * n.val, by omega⟩ : Fin 4096)) (by
    rw [Shape.rowMajor_val_two, Shape.rowMajor_val_three]
    show R.val * 4096 + 2 * n.val = (R.val * 2048 + n.val) * 2 + 0
    omega)).trans ?_
  -- row R = 2048·b + s of the flattened array is row s of batch b
  exact shapeCast_apply _ _ (ix2 R (⟨2 * n.val, by omega⟩ : Fin 4096))
    (ix3 (⟨R.val / 2048, by omega⟩ : Fin 4) (⟨R.val % 2048, by omega⟩ : Fin 2048) (⟨2 * n.val, by omega⟩ : Fin 4096)) (by
    rw [Shape.rowMajor_val_two, Shape.rowMajor_val_three]
    show (R.val / 2048 * 2048 + R.val % 2048) * 4096 + 2 * n.val = R.val * 4096 + 2 * n.val
    omega)

/-- The odd columns as one term of the argument x: flatten, pair up, take pair member 1, drop the unit axis. -/
theorem v7_eq : (V m c main_v7 : S8192x2048.Idx → EReal)
    = (truncf (F := Ideal) .bf16
        (shapeCast S8192x2048
          (extractStridedSlice S8192x2048x1 ![0, 0, 1]
            (shapeCast S8192x2048x2
              (shapeCast S8192x4096 (m ((c : Thread nD τ).loc main_arg0) : S4x2048x4096.Idx → EReal)
                shapeCasts_S4x2048x4096_S8192x4096)
              shapeCasts_S8192x4096_S8192x2048x2)
            slices_S8192x2048x2_S8192x2048x1_0_0_1)
          shapeCasts_S8192x2048x1_S8192x2048 : FVec Ideal S8192x2048 .f32)
        bitsLt_bf16_f32 : FVec Ideal S8192x2048 .bf16) := by
  open_entry
  rfl

theorem xo_apply (R : Fin 8192) (n : Fin 2048) :
    (V m c main_v7 : S8192x2048.Idx → EReal) (ix2 R n)
      = (m ((c : Thread nD τ).loc main_arg0) : S4x2048x4096.Idx → EReal)
          (ix3 (⟨R.val / 2048, by omega⟩ : Fin 4) (⟨R.val % 2048, by omega⟩ : Fin 2048) (⟨2 * n.val + 1, by omega⟩ : Fin 4096)) := by
  rw [v7_eq]
  rw [truncf_apply]
  -- [8192, 2048] from [8192, 2048, 1]: the same row-major position
  refine (shapeCast_apply _ _ (ix2 R n) (ix3 R n (0 : Fin 1)) (by
    rw [Shape.rowMajor_val_two, Shape.rowMajor_val_three]
    show (R.val * 2048 + n.val) * 1 + 0 = R.val * 2048 + n.val
    omega)).trans ?_
  -- pair member 1 of pair n of row R
  refine (extractStridedSlice_apply _ _ _ (ix3 R n (0 : Fin 1)) (ix3 R n (1 : Fin 2)) (fun a => match a with
    | ⟨0, _⟩ => by show R.val = 0 + R.val; omega
    | ⟨1, _⟩ => by show n.val = 0 + n.val; omega
    | ⟨2, _⟩ => by show 1 = 1 + 0; omega)).trans ?_
  -- member 1 of pair n is column 2n + 1
  refine (shapeCast_apply _ _ (ix3 R n (1 : Fin 2)) (ix2 R (⟨2 * n.val + 1, by omega⟩ : Fin 4096)) (by
    rw [Shape.rowMajor_val_two, Shape.rowMajor_val_three]
    show R.val * 4096 + (2 * n.val + 1) = (R.val * 2048 + n.val) * 2 + 1
    omega)).trans ?_
  -- row R = 2048·b + s of the flattened array is row s of batch b
  exact shapeCast_apply _ _ (ix2 R (⟨2 * n.val + 1, by omega⟩ : Fin 4096))
    (ix3 (⟨R.val / 2048, by omega⟩ : Fin 4) (⟨R.val % 2048, by omega⟩ : Fin 2048) (⟨2 * n.val + 1, by omega⟩ : Fin 4096)) (by
    rw [Shape.rowMajor_val_two, Shape.rowMajor_val_three]
    show (R.val / 2048 * 2048 + R.val % 2048) * 4096 + (2 * n.val + 1) = R.val * 4096 + (2 * n.val + 1)
    omega)

/-- The packed weights with 256 rows of the zero word after the last. -/
theorem v8_eq : (V m c main_v8 : S11264x2048.Idx → BitVec 32)
    = pad S11264x2048 ![0, 0] ![256, 0] ![0, 0] (m ((c : Thread nD τ).loc main_arg1) : S11008x2048.Idx → BitVec 32)
        (constantI S_ 32 0#32) pads_S11008x2048_S11264x2048_02560_000 h_S_ := by
  open_entry
  rfl

theorem pw_apply (o : Fin 11008) (n : Fin 2048) :
    (V m c main_v8 : S11264x2048.Idx → BitVec 32) (ix2 (⟨o.val, by omega⟩ : Fin 11264) n)
      = (m ((c : Thread nD τ).loc main_arg1) : S11008x2048.Idx → BitVec 32) (ix2 o n) := by
  rw [v8_eq]
  -- no low padding and no interior padding: row o < 11008 of the padded array is row o of the operand
  exact pad_apply_of_inside _ _ _ _ _ _ _ (ix2 (⟨o.val, by omega⟩ : Fin 11264) n) (ix2 o n) (fun a => match a with
    | ⟨0, _⟩ => by show o.val = 0 + o.val * (0 + 1); omega
    | ⟨1, _⟩ => by show n.val = 0 + n.val * (0 + 1); omega)

/-- The scale padded with 256 zero rows after the last, laid out as one row. -/
theorem v11_eq : (V m c main_v11 : S1x11264.Idx → EReal)
    = shapeCast S1x11264
        (pad S11264x1 ![0, 0] ![256, 0] ![0, 0] (m ((c : Thread nD τ).loc main_arg2) : S11008x1.Idx → EReal)
          (sitofp (F := Ideal) .f32 (constantI S_ 32 0#32)) pads_S11008x1_S11264x1_02560_000 h_S_)
        shapeCasts_S11264x1_S1x11264 := by
  open_entry
  rfl

theorem sc_apply (o : Fin 11008) :
    (V m c main_v11 : S1x11264.Idx → EReal) (ix2 (0 : Fin 1) (⟨o.val, by omega⟩ : Fin 11264))
      = (m ((c : Thread nD τ).loc main_arg2) : S11008x1.Idx → EReal) (ix2 o (0 : Fin 1)) := by
  rw [v11_eq]
  -- entry o of the one row is row o of the one-column array
  refine (shapeCast_apply _ _ (ix2 (0 : Fin 1) (⟨o.val, by omega⟩ : Fin 11264)) (ix2 (⟨o.val, by omega⟩ : Fin 11264) (0 : Fin 1)) (by
    rw [Shape.rowMajor_val_two, Shape.rowMajor_val_two]
    show o.val * 1 + 0 = 0 * 11264 + o.val
    omega)).trans ?_
  exact pad_apply_of_inside _ _ _ _ _ _ _ (ix2 (⟨o.val, by omega⟩ : Fin 11264) (0 : Fin 1)) (ix2 o (0 : Fin 1)) (fun a => match a with
    | ⟨0, _⟩ => by show o.val = 0 + o.val * (0 + 1); omega
    | ⟨1, _⟩ => by show 0 = 0 + 0 * (0 + 1); omega)

/-- The bias padded with 256 zeros after the last, laid out as one row. -/
theorem v12_eq : (V m c main_v12 : S1x11264.Idx → EReal)
    = shapeCast S1x11264
        (pad S11264 ![0] ![256] ![0] (m ((c : Thread nD τ).loc main_arg3) : S11008.Idx → EReal)
          (sitofp (F := Ideal) .f32 (constantI S_ 32 0#32)) pads_S11008_S11264_02560 h_S_)
        shapeCasts_S11264_S1x11264 := by
  open_entry
  rfl

theorem bi_apply (o : Fin 11008) :
    (V m c main_v12 : S1x11264.Idx → EReal) (ix2 (0 : Fin 1) (⟨o.val, by omega⟩ : Fin 11264))
      = (m ((c : Thread nD τ).loc main_arg3) : S11008.Idx → EReal) (ix1 o) := by
  rw [v12_eq]
  -- entry o of the one row is entry o of the vector
  refine (shapeCast_apply _ _ (ix2 (0 : Fin 1) (⟨o.val, by omega⟩ : Fin 11264)) (ix1 (⟨o.val, by omega⟩ : Fin 11264)) (by
    rw [Shape.rowMajor_val_two, Shape.rowMajor_val_one]
    show o.val = 0 * 11264 + o.val
    omega)).trans ?_
  exact pad_apply_of_inside _ _ _ _ _ _ _ (ix1 (⟨o.val, by omega⟩ : Fin 11264)) (ix1 o) (fun a => match a with
    | ⟨0, _⟩ => by show o.val = 0 + o.val * (0 + 1); omega)

end Cert.KernelIdeal.HostPre

end
-- ==== Proof.KTail.lean ====
/-
  The result array after the region, and the geometry of the region's output window.

  The region writes its output, the array [8192, 11008], back in blocks of 1024 × 1024 at the visits t with
  t mod 4 = 3: block row t / 44, block column (t / 4) mod 11, the last block column cut to 768 columns at the array's
  end.  After the region the program views the array as [4, 2048, 11008]: entry (b, s, o) of the result is entry
  (2048·b + s, o) of the region's array.
-/
import proofs.«423822_j83081847373963_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Tail

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (c : Dev nD)

/-- After the region the output array is viewed as [4, 2048, 11008]: the whole-array form. -/
theorem tail_eq (G2 : S8192x11008.Idx → EReal) (hfin : ((dats m 0 c).arrAt 5 cfg0.N : S8192x11008.Idx → EReal) = G2) :
    (Pipeline.afterTail₀ cfgs (dats m) 0 (V0 m) [hostOps1] c main_v14 : S4x2048x11008.Idx → EReal)
      = shapeCast S4x2048x11008 G2 shapeCasts_S8192x11008_S4x2048x11008 := by
  unfold Pipeline.afterTail₀
  show StableHlo.after hostOps1 _ (Proc.devRef .tc main_v14) = _
  after_results
  -- the region's output array, as the pipeline's last write-back leaves it
  have h : (Pipeline.withArrays (cfgs 0).spec c (V0 m c) (fun w => (dats m 0 c).arrAt w (cfgs 0).N)
      (Proc.devRef .tc main_v13) : S8192x11008.Idx → EReal) = G2 :=
    (Pipeline.withArrays_arr spec0 launch0.win.arr_inj c (V0 m c) (fun w => (dats m 0 c).arrAt w cfg0.N) 5).trans hfin
  rw [h]
  rfl

theorem tail_apply (G2 : S8192x11008.Idx → EReal) (hfin : ((dats m 0 c).arrAt 5 cfg0.N : S8192x11008.Idx → EReal) = G2)
    (b : Fin 4) (s : Fin 2048) (o : Fin 11008) :
    (Pipeline.afterTail₀ cfgs (dats m) 0 (V0 m) [hostOps1] c main_v14 : S4x2048x11008.Idx → EReal) (ix3 b s o)
      = G2 (ix2 (⟨2048 * b.val + s.val, by omega⟩ : Fin 8192) o) := by
  rw [tail_eq m c G2 hfin]
  -- row s of batch b is row 2048·b + s of the flattened array
  exact shapeCast_apply _ _ (ix3 b s o) (ix2 (⟨2048 * b.val + s.val, by omega⟩ : Fin 8192) o) (by
    rw [Shape.rowMajor_val_two, Shape.rowMajor_val_three]
    show (2048 * b.val + s.val) * 11008 + o.val = (b.val * 2048 + s.val) * 11008 + o.val
    omega)

/-- The block index of the output window at visit t: block row t / 44, block column (t / 4) mod 11 — decided over
    the 352 visits. -/
theorem idx5 : ∀ t : Fin cfg0.N, win0_5.index t 0 = t.val / 44 ∧ win0_5.index t 1 = t.val / 4 % 11 :=
  (by decide +kernel : ∀ t : Fin grid0.N, win0_5.index t 0 = t.val / 44 ∧ win0_5.index t 1 = t.val / 4 % 11)

/-- The block's extent inside the array at visit t: all 1024 rows; 1024 columns, but 768 in the last block column
    (11008 = 10 · 1024 + 768) — decided over the 352 visits. -/
theorem xsize5 : ∀ t : Fin cfg0.N, win0_5.xsize (grid0.coords t) 0 = 1024
    ∧ win0_5.xsize (grid0.coords t) 1 = (if t.val / 4 % 11 = 10 then 768 else 1024) :=
  (by decide +kernel : ∀ t : Fin grid0.N, win0_5.xsize (grid0.coords t) 0 = 1024
    ∧ win0_5.xsize (grid0.coords t) 1 = (if t.val / 4 % 11 = 10 then 768 else 1024))

/-- Every entry of the output array lies in a block that is written back: entry (r, q) in the block of row r / 1024
    and column q / 1024, written back at visit 44·(r / 1024) + 4·(q / 1024) + 3. -/
theorem cover5 (i : S8192x11008.Idx) :
    ∃ t : Fin cfg0.N, (cfg0.win 5).flush t = true ∧ i ∈ ((cfg0.win 5).blk t).view.set := by
  have h0 : (i 0).val < 8192 := (i 0).isLt
  have h1 : (i 1).val < 11008 := (i 1).isLt
  have hN : grid0.N = 352 := N_0
  have hlt : 44 * ((i 0).val / 1024) + 4 * ((i 1).val / 1024) + 3 < cfg0.N := by
    show _ < grid0.N
    omega
  refine ⟨⟨44 * ((i 0).val / 1024) + 4 * ((i 1).val / 1024) + 3, hlt⟩, (flush0_5 _).2 (by
    show (44 * ((i 0).val / 1024) + 4 * ((i 1).val / 1024) + 3) % 4 = 3
    omega), ?_⟩
  generalize ht : (⟨44 * ((i 0).val / 1024) + 4 * ((i 1).val / 1024) + 3, hlt⟩ : Fin cfg0.N) = t
  have htv : t.val = 44 * ((i 0).val / 1024) + 4 * ((i 1).val / 1024) + 3 := by rw [← ht]
  show i ∈ ((View.whole main_v13).slice (win0_5.rect t)).set
  rw [View.set_slice_whole, Rect.mem_set_unit]
  obtain ⟨e0, e1⟩ := idx5 t
  obtain ⟨x0, x1⟩ := xsize5 t
  intro a
  match a with
  | ⟨0, _⟩ =>
    show win0_5.index t 0 * win0_5.size 0 ≤ (i 0 : Nat)
      ∧ (i 0 : Nat) < win0_5.index t 0 * win0_5.size 0 + win0_5.xsize (grid0.coords t) 0
    rw [e0, x0]
    show t.val / 44 * 1024 ≤ (i 0).val ∧ (i 0).val < t.val / 44 * 1024 + 1024
    omega
  | ⟨1, _⟩ =>
    show win0_5.index t 1 * win0_5.size 1 ≤ (i 1 : Nat)
      ∧ (i 1 : Nat) < win0_5.index t 1 * win0_5.size 1 + win0_5.xsize (grid0.coords t) 1
    rw [e1, x1]
    show t.val / 4 % 11 * 1024 ≤ (i 1).val
      ∧ (i 1).val < t.val / 4 % 11 * 1024 + (if t.val / 4 % 11 = 10 then 768 else 1024)
    split <;> omega

/-- Where an entry of the block written back at visit t sits in the array: block row t / 44 and block column
    (t / 4) mod 11, each times 1024, plus the entry's own coordinates. -/
theorem emb5 (t : Fin cfg0.N) (y : ((cfg0.win 5).xblock (cfg0.grid.coords t)).Idx) :
    ((((cfg0.win 5).blk t).view.emb y) 0 : Fin 8192).val = 1024 * (t.val / 44) + (y 0).val
      ∧ ((((cfg0.win 5).blk t).view.emb y) 1 : Fin 11008).val = 1024 * (t.val / 4 % 11) + (y 1).val := by
  obtain ⟨e0, e1⟩ := idx5 t
  have r0 := win0_5.rect_emb_val t y 0
  have r1 := win0_5.rect_emb_val t y 1
  rw [e0] at r0
  rw [e1] at r1
  constructor
  · show ((win0_5.rect t).emb y 0 : Nat) = _
    rw [r0]
    show t.val / 44 * 1024 + (y 0).val = _
    omega
  · show ((win0_5.rect t).emb y 1 : Nat) = _
    rw [r1]
    show t.val / 4 % 11 * 1024 + (y 1).val = _
    omega

end Cert.KernelIdeal.Tail

end
-- ==== Proof.KFinal.lean ====
/-
  The region's result array, the reshape after it, and the kernel's run.

  At the last slab of a row of visits (t mod 4 = 3) the body stores accumulator · scale row + bias row as the output block,
  and the pipeline writes the block's part inside the array back: entry (R, o) of the [8192, 11008] array ends at
  (both running sums over all 2048 columns) · scale[o] + bias[o].  Every entry lies in such a block.  The reshape
  to [4, 2048, 11008] reads row 2048·b + s, and inside the unpadded channels the padded arrays are the arguments, so the
  result is the specification's function of the four arguments.
-/
import proofs.«423822_j83081847373963_2_alg».proof.Proof.KInv
import proofs.«423822_j83081847373963_2_alg».proof.Proof.KHost
import proofs.«423822_j83081847373963_2_alg».proof.Proof.KTail

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Inv
open Cert.QLinear (lowE highE)

variable (m : (ℓ : Loc nD τ sig) → Buf (Elt Ideal) ℓ) (c : Dev nD)

/-- Entry (R, o) of the region's result: the two full sums, scaled, plus the bias. -/
def out2 (R o : ℕ) : EReal := part m c R o 2048 * at2 0 (SC m c) 0 o + at2 0 (BI m c) 0 o

/-- The region's [8192, 11008] result array. -/
def OUT2 : S8192x11008.Idx → EReal := fun i => out2 m c (i 0).val (i 1).val

/-- The output block after visit t, by its literal type. -/
abbrev oblk (t : Fin cfg0.N) : Vec Ideal S1024x1024 .f32 := (outsAt0 m c t.val t.isLt).1

/-- At the last slab of a row of visits the output block is the accumulator the visit leaves, scaled, plus the bias. -/
theorem out_last (t : Fin cfg0.N) (h0 : ¬t.val % 4 = 0) (h3 : t.val % 4 = 3) :
    oblk m c t = k0_pay2 (b3 m c t) (b4 m c t) (acc m c t.val t.isLt) := by
  show (outsAt0 m c t.val t.isLt).1 = k0_pay2 (b3 m c t) (b4 m c t) (outsAt0 m c t.val t.isLt).2
  rw [outsAt0_C m c t h0 h3]
  dsimp only
  refine (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (b0 m c t) (b1 m c t) (b2 m c t) (b3 m c t) (b4 m c t) (outsAt0 m c (t.val - 1) (Nat.lt_of_le_of_lt (Nat.sub_le _ _) t.isLt)).2).trans ?_
  exact congrArg (k0_pay2 (b3 m c t) (b4 m c t)) (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (b0 m c t) (b1 m c t) (b2 m c t) (b3 m c t) (b4 m c t) (outsAt0 m c (t.val - 1) (Nat.lt_of_le_of_lt (Nat.sub_le _ _) t.isLt)).2).symm

/-- So entry (r, cc) of that block is the result's entry at the block's place in the array. -/
theorem out_last_apply (t : Fin cfg0.N) (h3 : t.val % 4 = 3) (r cc : Fin 1024) :
    oblk m c t (ix2 r cc) = out2 m c (1024 * (t.val / 44) + r.val) (1024 * (t.val / 4 % 11) + cc.val) := by
  have h0 : ¬t.val % 4 = 0 := by omega
  rw [out_last m c t h0 h3]
  refine (Pay.fin_apply (b3 m c t) (b4 m c t) (acc m c t.val t.isLt) r cc).trans ?_
  rw [acc_eq m c t.val t.isLt r cc, blk3, blk4, h3]
  rfl

/-- What a writing-back visit writes is its block of the result array. -/
theorem flushed_eq (t : Fin cfg0.N) (hf : (cfg0.win 5).flush t = true) :
    (dats m 0 c).flushed 5 t = ((cfg0.win 5).blk t).view.read (Elt Ideal) (OUT2 m c) := by
  have h3 : t.val % 4 = 3 := (flush0_5 t).mp hf
  funext y
  rw [View.read_apply]
  show ((dats m 0 c).after 5 t) ((cfg0.win 5).xinj (grid0.coords t) y) = OUT2 m c (((cfg0.win 5).blk t).view.emb y)
  rw [after0_5]
  obtain ⟨r, cc, hj⟩ : ∃ (r cc : Fin 1024), ((cfg0.win 5).xinj (grid0.coords t) y : S1024x1024.Idx) = ix2 r cc :=
    ⟨_, _, eq_ix2 _⟩
  have hr : r.val = (y 0).val := congrArg Fin.val (congrFun hj 0).symm
  have hc : cc.val = (y 1).val := congrArg Fin.val (congrFun hj 1).symm
  show oblk m c t ((cfg0.win 5).xinj (grid0.coords t) y) = _
  rw [hj, out_last_apply m c t h3 r cc]
  unfold OUT2
  rw [(Tail.emb5 t y).1, (Tail.emb5 t y).2, hr, hc]

/-- The region's result array after the run. -/
theorem final : ((dats m 0 c).arrAt 5 cfg0.N : S8192x11008.Idx → EReal) = OUT2 m c :=
  (dats m 0 c).arrAt_eq_of_cover 5 (OUT2 m c) (flushed_eq m c) Tail.cover5

/-! ## Inside the unpadded channels the region's arrays are the arguments -/

theorem ix3_congr {n0 n1 n2 : ℕ} {a a' : Fin n0} {b b' : Fin n1} {d d' : Fin n2} (ha : a.val = a'.val) (hb : b.val = b'.val)
    (hd : d.val = d'.val) : ix3 a b d = ix3 a' b' d' := by
  obtain rfl := Fin.ext ha; obtain rfl := Fin.ext hb; obtain rfl := Fin.ext hd; rfl

/-- The even columns of flattened row 2048·b + s are x[b, s, 2n]. -/
theorem xe_at (b : Fin 4) (s : Fin 2048) (n : Fin 2048) :
    at2 0 (XE m c) (2048 * b.val + s.val) n.val
      = (m ((c : Thread nD τ).loc main_arg0) : S4x2048x4096.Idx → EReal) (ix3 b s (⟨2 * n.val, by omega⟩ : Fin 4096)) := by
  have hb := b.isLt; have hs := s.isLt
  rw [at2_eq _ _ _ _ (by omega) n.isLt]
  refine (HostPre.xe_apply m c ⟨2048 * b.val + s.val, by omega⟩ n).trans ?_
  exact congrArg _ (ix3_congr (by show (2048 * b.val + s.val) / 2048 = b.val; omega)
    (by show (2048 * b.val + s.val) % 2048 = s.val; omega) rfl)

/-- The odd columns of flattened row 2048·b + s are x[b, s, 2n + 1]. -/
theorem xo_at (b : Fin 4) (s : Fin 2048) (n : Fin 2048) :
    at2 0 (XO m c) (2048 * b.val + s.val) n.val
      = (m ((c : Thread nD τ).loc main_arg0) : S4x2048x4096.Idx → EReal) (ix3 b s (⟨2 * n.val + 1, by omega⟩ : Fin 4096)) := by
  have hb := b.isLt; have hs := s.isLt
  rw [at2_eq _ _ _ _ (by omega) n.isLt]
  refine (HostPre.xo_apply m c ⟨2048 * b.val + s.val, by omega⟩ n).trans ?_
  exact congrArg _ (ix3_congr (by show (2048 * b.val + s.val) / 2048 = b.val; omega)
    (by show (2048 * b.val + s.val) % 2048 = s.val; omega) rfl)

/-- Inside the unpadded rows the padded weights are the packed weights. -/
theorem pw_at (o : Fin 11008) (n : Fin 2048) :
    at2 0 (PW m c) o.val n.val = (m ((c : Thread nD τ).loc main_arg1) : S11008x2048.Idx → BitVec 32) (ix2 o n) := by
  have ho := o.isLt
  rw [at2_eq _ _ _ _ (by omega) n.isLt]
  exact HostPre.pw_apply m c o n

/-- Inside the unpadded channels the scale row is the scale column, -/
theorem sc_at (o : Fin 11008) :
    at2 0 (SC m c) 0 o.val = (m ((c : Thread nD τ).loc main_arg2) : S11008x1.Idx → EReal) (ix2 o (0 : Fin 1)) := by
  have ho := o.isLt
  rw [at2_eq _ _ _ _ (by omega) (by omega)]
  exact HostPre.sc_apply m c o

/-- and the bias row the bias. -/
theorem bi_at (o : Fin 11008) :
    at2 0 (BI m c) 0 o.val = (m ((c : Thread nD τ).loc main_arg3) : S11008.Idx → EReal) (ix1 o) := by
  have ho := o.isLt
  rw [at2_eq _ _ _ _ (by omega) (by omega)]
  exact HostPre.bi_apply m c o

/-- Entry (2048·b + s, o) of the region's result is the specification's value at (b, s, o). -/
theorem out2_eq (b : Fin 4) (s : Fin 2048) (o : Fin 11008) :
    out2 m c (2048 * b.val + s.val) o.val
      = Cert.QLinear.Gat (m ((c : Thread nD τ).loc main_arg0)) (m ((c : Thread nD τ).loc main_arg1))
          (m ((c : Thread nD τ).loc main_arg2)) (m ((c : Thread nD τ).loc main_arg3)) b s o := by
  unfold out2 part Cert.QLinear.Gat
  rw [Finset.sum_range, Finset.sum_range, sc_at, bi_at]
  simp only [xe_at m c b s, xo_at m c b s, pw_at m c o]

/-- The kernel's result array. -/
theorem result_eq :
    (Pipeline.afterTail₀ cfgs (dats m) 0 (V0 m) [hostOps1] c main_v14 : S4x2048x11008.Idx → EReal)
      = Cert.QLinear.G (m ((c : Thread nD τ).loc main_arg0)) (m ((c : Thread nD τ).loc main_arg1))
          (m ((c : Thread nD τ).loc main_arg2)) (m ((c : Thread nD τ).loc main_arg3)) := by
  funext i
  obtain ⟨b, s, o, rfl⟩ : ∃ (b : Fin 4) (s : Fin 2048) (o : Fin 11008), i = ix3 b s o := ⟨i 0, i 1, i 2, eq_ix3 i⟩
  rw [Tail.tail_apply m c (OUT2 m c) (final m c) b s o, Cert.QLinear.G_apply]
  exact out2_eq m c b s o

/-- THE KERNEL'S RUN: every weakly fair execution terminates with the result array at the specification's function of
    the arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v14)
        = Cert.QLinear.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v14 (Pipeline.mem_restRefs_of main_v14 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Final

end
-- ==== Proof.RefSide.lean ====
/-
  The reference's result is the specification's function, once every entry of x and of the scale is a real.

  The reference interleaves the two nibbles of each packed word into 4096 weight columns (column 2n the low nibble of word
  (o, n) minus 8, column 2n + 1 the next nibble minus 8), multiplies every weight by its row's scale, contracts x against
  the scaled weights over all 4096 columns and adds the bias.  Over the reals the scale moves across the sum, and the sum
  over 4096 columns is the sum over the even ones plus the sum over the odd ones.
-/
import proofs.«423822_j83081847373963_2_alg».proof.Proof.Gen.ReferenceIdeal.Read
import proofs.«423822_j83081847373963_2_alg».proof.Proof.Spec
import Idealize.ShloMosaic.Lib.Pipeline.Value
import Idealize.ShloMosaic.Lib.ValueIdx
import Idealize.ShloMosaic.PureOps.Ideal
import Mathlib.Data.EReal.Basic
import Mathlib.Data.Fintype.BigOperators
import Mathlib.Algebra.BigOperators.Group.Finset.Basic

noncomputable section

namespace Cert.ReferenceIdeal.RefValue

open Idealize.ShloMosaic Idealize.ShloMosaic.ValueIdx Cert.ReferenceIdeal Cert.ReferenceIdeal.Gen Cert.ReferenceIdeal.Read Cert.QLinear

/-! ## Sums: even and odd terms, and a real scale moved across a sum of reals -/

/-- A sum over the first 2N naturals is the sum of its even terms plus the sum of its odd terms. -/
theorem sum_range_even_odd {M : Type*} [AddCommMonoid M] (g : ℕ → M) (N : ℕ) :
    ∑ k ∈ Finset.range (2 * N), g k
      = ∑ n ∈ Finset.range N, g (2 * n) + ∑ n ∈ Finset.range N, g (2 * n + 1) := by
  induction N with
  | zero => simp
  | succ N ih =>
    rw [show 2 * (N + 1) = 2 * N + 1 + 1 from by ring, Finset.sum_range_succ, Finset.sum_range_succ, ih,
      Finset.sum_range_succ, Finset.sum_range_succ]
    abel

/-- The 4096 columns split into the 2048 even ones and the 2048 odd ones. -/
theorem sum_fin_even_odd {M : Type*} [AddCommMonoid M] (f : Fin 4096 → M) :
    ∑ k : Fin 4096, f k
      = ∑ n : Fin 2048, f ⟨2 * n.val, by omega⟩ + ∑ n : Fin 2048, f ⟨2 * n.val + 1, by omega⟩ := by
  have h := sum_range_even_odd (fun k => if h : k < 4096 then f ⟨k, h⟩ else 0) 2048
  refine (Finset.sum_fin_eq_sum_range f).trans (h.trans ?_)
  rw [Finset.sum_fin_eq_sum_range (fun n : Fin 2048 => f ⟨2 * n.val, by omega⟩),
    Finset.sum_fin_eq_sum_range (fun n : Fin 2048 => f ⟨2 * n.val + 1, by omega⟩)]
  refine congrArg₂ (· + ·) (Finset.sum_congr rfl fun n hn => ?_) (Finset.sum_congr rfl fun n hn => ?_)
  · have hn' : n < 2048 := Finset.mem_range.mp hn
    rw [dif_pos hn', dif_pos (show 2 * n < 4096 by omega)]
  · have hn' : n < 2048 := Finset.mem_range.mp hn
    rw [dif_pos hn', dif_pos (show 2 * n + 1 < 4096 by omega)]

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real scale moves across a sum of products of reals. -/
theorem sum_mul_scale {ι : Type*} [Fintype ι] (X W : ι → EReal) (s : EReal)
    (hX : ∀ k, IsReal (X k)) (hW : ∀ k, IsReal (W k)) (hs : IsReal s) :
    ∑ k, X k * (W k * s) = (∑ k, X k * W k) * s := by
  choose xr hxr using hX
  choose wr hwr using hW
  obtain ⟨sr, rfl⟩ := hs
  simp only [hxr, hwr, ← EReal.coe_mul, ← coe_sum]
  rw [Finset.sum_mul]
  simp only [mul_assoc]

/-! ## The interleaved weight at an index -/

/-- The joined array at (o, n, 0) is the low-nibble array at (o, n). -/
theorem v12_zero (x1 : (⟨S11008x2048, .i32⟩ : BufTy).Contents (Elt Ideal)) (o : Fin 11008) (n : Fin 2048) :
    val_main_v12 (F := Ideal) x1 (ix3 o n (0 : Fin 2)) = val_main_v3 (F := Ideal) x1 (ix2 o n) := by
  unfold val_main_v12
  refine (concatenate_pair_apply_left (t := S11008x2048x2) (s₁ := S11008x2048x1) (s₂ := S11008x2048x1) _ _ _ _
    (ix3 o n (0 : Fin 2)) rfl (ix3 o n (0 : Fin 1)) ?_).trans ?_
  · intro b
    match b with
    | ⟨0, _⟩ => rfl
    | ⟨1, _⟩ => rfl
    | ⟨2, _⟩ => rfl
  · rw [val_main_v10_apply]
    exact congrArg _ (funext fun a => match a with | ⟨0, _⟩ => rfl | ⟨1, _⟩ => rfl)

/-- The joined array at (o, n, 1) is the high-nibble array at (o, n). -/
theorem v12_one (x1 : (⟨S11008x2048, .i32⟩ : BufTy).Contents (Elt Ideal)) (o : Fin 11008) (n : Fin 2048) :
    val_main_v12 (F := Ideal) x1 (ix3 o n (1 : Fin 2)) = val_main_v9 (F := Ideal) x1 (ix2 o n) := by
  unfold val_main_v12
  refine (concatenate_pair_apply_right (t := S11008x2048x2) (s₁ := S11008x2048x1) (s₂ := S11008x2048x1) _ _ _ _
    (ix3 o n (1 : Fin 2)) rfl rfl (ix3 o n (0 : Fin 1)) ?_ rfl).trans ?_
  · intro b hb
    match b, hb with
    | ⟨0, _⟩, _ => rfl
    | ⟨1, _⟩, _ => rfl
    | ⟨2, _⟩, hb => exact absurd rfl hb
  · rw [val_main_v11_apply]
    exact congrArg _ (funext fun a => match a with | ⟨0, _⟩ => rfl | ⟨1, _⟩ => rfl)

/-- Column 2n of the interleaved weight, as a real: the low nibble of word (o, n) minus 8. -/
theorem weight_even (x1 : (⟨S11008x2048, .i32⟩ : BufTy).Contents (Elt Ideal)) (o : Fin 11008) (n : Fin 2048) :
    (FloatOps.sitofp (F := Ideal) .f32 (val_main_v13 (F := Ideal) x1 (ix2 o (⟨2 * n.val, by omega⟩ : Fin 4096))) : EReal)
      = lowE (x1 (ix2 o n)) := by
  have e : idx_main_v13 (ix2 o (⟨2 * n.val, by omega⟩ : Fin 4096)) = ix3 o n (0 : Fin 2) := by
    funext a
    have ho := o.isLt
    have hn := n.isLt
    match a with
    | ⟨0, _⟩ => exact Fin.ext (show (o.val * 4096 + 2 * n.val) / 4096 = o.val by omega)
    | ⟨1, _⟩ => exact Fin.ext (show (o.val * 4096 + 2 * n.val) / 2 % 2048 = n.val by omega)
    | ⟨2, _⟩ => exact Fin.ext (show (o.val * 4096 + 2 * n.val) % 2 = 0 by omega)
  rw [val_main_v13_apply, e, v12_zero, val_main_v3_apply, val_main_v1_apply, val_main_v0_apply, val_main_c_apply,
    val_main_v2_apply, val_main_c_0_apply]
  rfl

/-- Column 2n+1 of the interleaved weight, as a real: the next nibble of word (o, n) minus 8. -/
theorem weight_odd (x1 : (⟨S11008x2048, .i32⟩ : BufTy).Contents (Elt Ideal)) (o : Fin 11008) (n : Fin 2048) :
    (FloatOps.sitofp (F := Ideal) .f32 (val_main_v13 (F := Ideal) x1 (ix2 o (⟨2 * n.val + 1, by omega⟩ : Fin 4096))) : EReal)
      = highE (x1 (ix2 o n)) := by
  have e : idx_main_v13 (ix2 o (⟨2 * n.val + 1, by omega⟩ : Fin 4096)) = ix3 o n (1 : Fin 2) := by
    funext a
    have ho := o.isLt
    have hn := n.isLt
    match a with
    | ⟨0, _⟩ => exact Fin.ext (show (o.val * 4096 + (2 * n.val + 1)) / 4096 = o.val by omega)
    | ⟨1, _⟩ => exact Fin.ext (show (o.val * 4096 + (2 * n.val + 1)) / 2 % 2048 = n.val by omega)
    | ⟨2, _⟩ => exact Fin.ext (show (o.val * 4096 + (2 * n.val + 1)) % 2 = 1 by omega)
  rw [val_main_v13_apply, e, v12_one, val_main_v9_apply, val_main_v7_apply, val_main_v5_apply, val_main_v4_apply,
    val_main_c_1_apply, val_main_v6_apply, val_main_c_2_apply, val_main_v8_apply, val_main_c_3_apply]
  rfl

/-! ## The reference's result is the specification's -/

open Idealize.ShloMosaic Cert.ReferenceIdeal in
/-- With every entry of x and of the scale a real, the reference's contraction over all 4096 columns of the scaled
    interleaved weight, plus the bias, is the specification's value: the scale moves across the sum, and the columns
    split into the even ones (low nibbles) and the odd ones (next nibbles). -/
theorem ref_eq_G
    (x0 : (⟨S4x2048x4096, .f32⟩ : BufTy).Contents (Elt Ideal)) (x1 : (⟨S11008x2048, .i32⟩ : BufTy).Contents (Elt Ideal))
    (x2 : (⟨S11008x1, .f32⟩ : BufTy).Contents (Elt Ideal)) (x3 : (⟨S11008, .f32⟩ : BufTy).Contents (Elt Ideal))
    (hx : ∀ j, Cert.QLinear.IsReal (x0 j)) (hs : ∀ j, Cert.QLinear.IsReal (x2 j)) :
    Cert.ReferenceIdeal.Read.val_main_v20 (F := Ideal) x0 x1 x2 x3 = Cert.QLinear.G x0 x1 x2 x3 := by
  funext i
  obtain ⟨b, s, o, rfl⟩ : ∃ (b : Fin 4) (s : Fin 2048) (o : Fin 11008), i = ix3 b s o := ⟨i 0, i 1, i 2, eq_ix3 i⟩
  rw [G_apply, val_main_v20_apply, val_main_v17_apply, val_main_v19_apply, val_main_v18_apply]
  -- the bias is read at o
  have e3 : idx_main_v18 (idx_main_v19 (ix3 b s o)) = ix1 o := funext fun a => match a with | ⟨0, _⟩ => rfl
  rw [e3]
  -- one term of the contraction: x[b, s, k] · (float(wq[o, k]) · sc[o, 0])
  have hk : ∀ k : Fin 4096,
      x0 (lidx_main_v17 (ix3 b s o) k) * val_main_v16 (F := Ideal) x1 x2 (ridx_main_v17 (ix3 b s o) k)
        = x0 (ix3 b s k)
          * ((FloatOps.sitofp (F := Ideal) .f32 (val_main_v13 (F := Ideal) x1 (ix2 o k)) : EReal) * x2 (ix2 o (0 : Fin 1))) := by
    intro k
    have el : lidx_main_v17 (ix3 b s o) k = ix3 b s k :=
      funext fun a => match a with | ⟨0, _⟩ => rfl | ⟨1, _⟩ => rfl | ⟨2, _⟩ => rfl
    have er : ridx_main_v17 (ix3 b s o) k = ix2 o k :=
      funext fun a => match a with | ⟨0, _⟩ => rfl | ⟨1, _⟩ => rfl
    have e15 : idx_main_v15 (ix2 o k) = ix2 o (0 : Fin 1) :=
      funext fun a => match a with | ⟨0, _⟩ => rfl | ⟨1, _⟩ => rfl
    rw [el, er, val_main_v16_apply, val_main_v14_apply, val_main_v15_apply, e15]
    rfl
  rw [Finset.sum_congr rfl fun k _ => hk k]
  -- the scale moves across the sum of reals, and the columns split into even and odd ones
  rw [sum_mul_scale (fun k : Fin 4096 => x0 (ix3 b s k))
    (fun k : Fin 4096 => (FloatOps.sitofp (F := Ideal) .f32 (val_main_v13 (F := Ideal) x1 (ix2 o k)) : EReal))
    (x2 (ix2 o (0 : Fin 1))) (fun k => hx _) (fun k => ⟨_, rfl⟩) (hs _)]
  rw [sum_fin_even_odd]
  simp only [weight_even, weight_odd]
  rfl

end Cert.ReferenceIdeal.RefValue

end
-- ==== Proof.Finite.lean ====
/-
  The certificate's precondition, read back: every entry of the three float arguments is a real number.

  The printed predicate takes, for each float argument a, the comparison |a| < +∞ at every entry (|a| is max a (−a) on
  the extended reals, and the pattern 0x7F800000 denotes +∞), reduces it by 'and' over all axes, and joins the three
  reductions by 'and'.  The result being the bit 1 gives each comparison at each entry; an extended real whose absolute
  value is below +∞ is neither +∞ nor −∞, hence a real.
-/
import proofs.«423822_j83081847373963_2_alg».proof.Pre_finite_inputs
import proofs.«423822_j83081847373963_2_alg».proof.Proof.Gen.Pre_finite_inputs
import proofs.«423822_j83081847373963_2_alg».proof.Proof.Spec
import Idealize.ShloMosaic.Lib.ReduceAll
import Idealize.ShloMosaic.Lib.ValueIdx
import Idealize.ShloMosaic.PureOps.Ideal

namespace Cert.QLinear.Finite

open Idealize.ShloMosaic

/-- The rank-0 shape has a single index. -/
instance : Subsingleton Cert.Pre_finite_inputs.S_.Idx := ⟨fun a b => funext fun d => d.elim0⟩

/-- The pattern 0x7F800000 denotes +∞. -/
theorem ofBits_inf : Ideal.ofBits .f32 0x7F800000#32 = (⊤ : EReal) := by simp [Ideal.ofBits, Ideal.ieee]

/-- An extended real whose absolute value max a (−a) compares below +∞ is a real. -/
theorem isReal_of_abs_lt_inf (a : EReal)
    (h : Ideal.cmp .olt (max a (-a)) (Ideal.ofBits .f32 0x7F800000#32) = 1#1) : Cert.QLinear.IsReal a := by
  rw [ofBits_inf] at h
  induction a using EReal.rec with
  | bot => simp [Ideal.cmp] at h
  | top => simp [Ideal.cmp] at h
  | coe r => exact ⟨r, rfl⟩

open Idealize.ShloMosaic in
theorem real_of_pre
    (x0 : FVec Ideal Cert.Pre_finite_inputs.S4x2048x4096 .f32) (x1 : IVec Cert.Pre_finite_inputs.S11008x2048 32)
    (x2 : FVec Ideal Cert.Pre_finite_inputs.S11008x1 .f32) (x3 : FVec Ideal Cert.Pre_finite_inputs.S11008 .f32)
    (h : Cert.Pre_finite_inputs.fn (F := Ideal) x0 x1 x2 x3 = fun _ => 1#1) :
    (∀ j, Cert.QLinear.IsReal (x0 j)) ∧ (∀ j, Cert.QLinear.IsReal (x2 j)) ∧ (∀ j, Cert.QLinear.IsReal (x3 j)) := by
  have h0 := congrFun h ValueIdx.ix0
  dsimp only [Cert.Pre_finite_inputs.fn] at h0
  -- the outer 'and' joins (x ∧ scale) with bias; the inner one joins x with scale
  obtain ⟨h01, h3⟩ := IntOp.andi_eq_one.1 h0
  obtain ⟨h1, h2⟩ := IntOp.andi_eq_one.1 h01
  refine ⟨fun j => ?_, fun j => ?_, fun j => ?_⟩
  · exact isReal_of_abs_lt_inf _ (Host.reduce_andi_all _ _ _ _ _ h1 j)
  · exact isReal_of_abs_lt_inf _ (Host.reduce_andi_all _ _ _ _ _ h2 j)
  · exact isReal_of_abs_lt_inf _ (Host.reduce_andi_all _ _ _ _ _ h3 j)

end Cert.QLinear.Finite
-- ==== Proof.lean ====
/-
  The certificate of a 4-bit quantised linear layer: x · Wᵀ · scale + bias, the weights packed two nibbles to a word.

  Both programs compute, at (b, s, o),
      ( Σ_{n < 2048} x[b, s, 2n] · low(w[o, n]) + Σ_{n < 2048} x[b, s, 2n+1] · high(w[o, n]) ) · scale[o] + bias[o].
  The kernel splits x into its even and odd columns outside the grid, accumulates the two products slab by slab
  (four slabs of 512 packed columns) into a scratch block that is reset at the first slab, and scales and shifts once at the
  last slab; the blocks of the padded output channels beyond 11008 are cut off by the write-back.  The reference
  interleaves the nibbles, scales every weight, and contracts all 4096 columns at once.  Over the extended reals the two
  agree once every entry of x and of the scale is a real number — the precondition — because then the scale moves across
  the sum; reordering the sum itself needs nothing.
  The frames are the generated ones; the reference's frame is its generated run with the result dropped; the ideal pass
  rewrote nothing, so that conjunct is trivial.
-/
import proofs.«423822_j83081847373963_2_alg».proof.Defs
import proofs.«423822_j83081847373963_2_alg».proof.Proof.Gen.Kernel
import proofs.«423822_j83081847373963_2_alg».proof.Proof.Gen.Kernel.Frame
import proofs.«423822_j83081847373963_2_alg».proof.Proof.Gen.KernelIdeal
import proofs.«423822_j83081847373963_2_alg».proof.Proof.Gen.KernelIdeal.Frame
import proofs.«423822_j83081847373963_2_alg».proof.Proof.Gen.ReferenceIdeal
import proofs.«423822_j83081847373963_2_alg».proof.Proof.Gen.ReferenceIdeal.Run
import proofs.«423822_j83081847373963_2_alg».proof.Proof.Gen.ReferenceIdeal.Read
import proofs.«423822_j83081847373963_2_alg».proof.Proof.Gen.Pre_finite_inputs
import proofs.«423822_j83081847373963_2_alg».proof.Proof.KFinal
import proofs.«423822_j83081847373963_2_alg».proof.Proof.RefSide
import proofs.«423822_j83081847373963_2_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's function of arguments that agree: the kernel's run gives it
    directly, the reference's after the scale has been moved across the sum, which the precondition allows. -/
theorem algebraic : Cert.algebraic_KernelIdeal_ReferenceIdeal := by
  intro m ρ m' ρ' hpre hagree
  refine ⟨fun c => Cert.QLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs, _⟩ := Cert.QLinear.Finite.real_of_pre _ _ _ _ (hpre c)
  rw [Cert.ReferenceIdeal.Read.val_main_v20_eq, (hagree c).1, (hagree c).2.1, (hagree c).2.2.1, (hagree c).2.2.2]
  exact Cert.ReferenceIdeal.RefValue.ref_eq_G _ _ _ _ hx hs

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
